-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S1x1, .f32⟩
  | .hbm, ⟨90, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_cst_14 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  Two graph-convolution layers and a scalar read-out, as whole-array functions over the extended reals.

  A node feature matrix is multiplied by a weight matrix row by row: entry (n, j) of the product is the sum over the
  contracted coordinate k of (row n, column k) times (row k, column j). The second and third products are taken of a
  matrix to whose every row one bias row has first been added; the read-out then adds its own scalar bias, clamps into
  [0, 10] and rounds to the nearest integer, ties to even. Between the products the aggregation over the graph's edges
  is one and the same function of the product's rows on both sides of the certificate; it never appears here.
-/
import Idealize.ShloMosaic.PureOps.Ideal
import Idealize.ShloMosaic.Lib.ValueIdx
import Idealize.ShloMosaic.Lib.ValueLayout

noncomputable section

open scoped BigOperators

namespace Cert.Gcn

open Idealize.ShloMosaic Idealize.ShloMosaic.ValueIdx

/-- A one-row matrix read as its row. -/
def row {n : Nat} (b : FVec Ideal ⟨2, ![1, n]⟩ .f32) : FVec Ideal ⟨1, ![n]⟩ .f32 := fun i => b (ix2 (0 : Fin 1) (i 0))

/-- The first layer's product: the 100000 × 128 feature rows times the 128 × 64 weights. -/
def featTimesW (x : FVec Ideal ⟨2, ![100000, 128]⟩ .f32) (w : FVec Ideal ⟨2, ![128, 64]⟩ .f32) :
    FVec Ideal ⟨2, ![100000, 64]⟩ .f32 :=
  fun i => ∑ k : Fin 128, x (ix2 (i 0) k) * w (ix2 k (i 1))

/-- The second layer's product: the aggregated rows, each with the bias row added, times the 64 × 64 weights. -/
def biasedTimesW (a : FVec Ideal ⟨2, ![100000, 64]⟩ .f32) (b : FVec Ideal ⟨1, ![64]⟩ .f32)
    (w : FVec Ideal ⟨2, ![64, 64]⟩ .f32) : FVec Ideal ⟨2, ![100000, 64]⟩ .f32 :=
  fun i => ∑ k : Fin 64, (a (ix2 (i 0) k) + b (ix1 k)) * w (ix2 k (i 1))

/-- The read-out: the aggregated rows plus the bias row, times the 64 × 1 column, plus the scalar bias, clamped into
    [0, 10] (first from below, then from above) and rounded half to even. -/
def readOut (a : FVec Ideal ⟨2, ![100000, 64]⟩ .f32) (b : FVec Ideal ⟨1, ![64]⟩ .f32)
    (w : FVec Ideal ⟨2, ![64, 1]⟩ .f32) (fb : FVec Ideal ⟨1, ![1]⟩ .f32) : FVec Ideal ⟨2, ![100000, 1]⟩ .f32 :=
  fun i => FloatOps.roundeven (F := Ideal) (φ := .f32)
    (min (Ideal.ofBits .f32 0x41200000#32)
      (max (Ideal.ofBits .f32 0x00000000#32)
        ((∑ k : Fin 64, (a (ix2 (i 0) k) + b (ix1 k)) * w (ix2 k (i 1))) + fb (ix1 (0 : Fin 1)))))

/-- A vector laid out as a one-row matrix and read back as that row is the vector. -/
theorem row_shapeCast {n : Nat} (b : FVec Ideal ⟨1, ![n]⟩ .f32) (h : (⟨1, ![n]⟩ : Shape).ShapeCasts ⟨2, ![1, n]⟩) :
    row (shapeCast ⟨2, ![1, n]⟩ b h) = b := by
  funext i
  obtain ⟨a, rfl⟩ : ∃ a : Fin n, i = ix1 a := ⟨i 0, eq_ix1 i⟩
  exact shapeCast_a_1a_apply b h 0 a

end Cert.Gcn

end
-- ==== Proof.RefStages.lean ====
/-
  The reference program's stages, read against the whole-array functions of the specification. Its three `dot_general`s
  are the three products: entry (n, j) is the sum over the contracted coordinate, the second and third taken of rows to
  which a bias row was added by broadcasting; the tail (add the scalar bias, clamp from below at 0, then from above at
  10, round half to even) is the read-out's. Between the products stands the aggregation over the graph's edges, named
  here as ONE function of the product's rows (and of the edge list and the edge weights), never opened.
-/
import proofs.«130077_j79559974191165_1_alg».proof.Proof.Gen.ReferenceIdeal.Read
import proofs.«130077_j79559974191165_1_alg».proof.Proof.Spec

noncomputable section

open scoped BigOperators

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-! ## The aggregation over the edges, as one function of the rows it gathers -/

/-- The first layer's aggregation: gather the rows at the edges' sources, scale each by its edge's normalised weight,
    and add them up at the edges' targets. -/
def aggregate1 (h : (⟨S100000x64, .f32⟩ : BufTy).Contents (Elt F)) (x1 : (⟨S2x1600000, .i32⟩ : BufTy).Contents (Elt F)) (x2 : (⟨S1600000, .f32⟩ : BufTy).Contents (Elt F)) : (⟨S100000x64, .f32⟩ : BufTy).Contents (Elt F) :=
  Host.scatterAdd scatter_S100000x64_S1700000x1_S1700000x64_1_0_0_1 (val_main_v45 (F := F)) (val_main_v46 (F := F) x1)
    (mulf (Host.gather gather_S100000x64_S1700000x1_S1700000x64_1_0_n_n_0_1_164 h (val_main_v40 (F := F) x1)) (val_main_v43 (F := F) x1 x2))

/-- The second layer's aggregation: the same function, spelt by the program a second time. -/
def aggregate2 (h : (⟨S100000x64, .f32⟩ : BufTy).Contents (Elt F)) (x1 : (⟨S2x1600000, .i32⟩ : BufTy).Contents (Elt F)) (x2 : (⟨S1600000, .f32⟩ : BufTy).Contents (Elt F)) : (⟨S100000x64, .f32⟩ : BufTy).Contents (Elt F) :=
  Host.scatterAdd scatter_S100000x64_S1700000x1_S1700000x64_1_0_0_1 (val_main_v62 (F := F)) (val_main_v63 (F := F) x1)
    (mulf (Host.gather gather_S100000x64_S1700000x1_S1700000x64_1_0_n_n_0_1_164 h (val_main_v57 (F := F) x1)) (val_main_v60 (F := F) x1 x2))

theorem aggregated1 (x0 : (⟨S100000x128, .f32⟩ : BufTy).Contents (Elt F)) (x1 : (⟨S2x1600000, .i32⟩ : BufTy).Contents (Elt F)) (x2 : (⟨S1600000, .f32⟩ : BufTy).Contents (Elt F)) (x3 : (⟨S128x64, .f32⟩ : BufTy).Contents (Elt F)) :
    val_main_v47 (F := F) x0 x1 x2 x3 = aggregate1 (val_main_v34 (F := F) x0 x3) x1 x2 := rfl

theorem aggregated2 (x0 : (⟨S100000x128, .f32⟩ : BufTy).Contents (Elt F)) (x1 : (⟨S2x1600000, .i32⟩ : BufTy).Contents (Elt F)) (x2 : (⟨S1600000, .f32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F)) :
    val_main_v64 (F := F) x0 x1 x2 x3 x4 x5 = aggregate2 (val_main_v51 (F := F) x0 x1 x2 x3 x4 x5) x1 x2 := rfl

/-! ## The three products and the tail -/

/-- The first `dot_general` is the product of the feature rows with the weights. -/
theorem product1 (x0 : (⟨S100000x128, .f32⟩ : BufTy).Contents (Elt Ideal)) (x3 : (⟨S128x64, .f32⟩ : BufTy).Contents (Elt Ideal)) :
    val_main_v34 (F := Ideal) x0 x3 = Gcn.featTimesW x0 x3 := by
  funext i
  rw [val_main_v34_apply]
  refine Finset.sum_congr rfl fun k _ => ?_
  have el : lidx_main_v34 i k = ix2 (i 0) k := funext fun a => by match a with | ⟨0, _⟩ => rfl | ⟨1, _⟩ => rfl
  have er : ridx_main_v34 i k = ix2 k (i 1) := funext fun a => by match a with | ⟨0, _⟩ => rfl | ⟨1, _⟩ => rfl
  rw [el, er]
  rfl

/-- The second `dot_general`, of the rows with the bias broadcast onto them, is the biased product. -/
theorem product2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal)) :
    val_main_v51 (F := Ideal) x0 x1 x2 x3 x4 x5 = Gcn.biasedTimesW (val_main_v47 (F := Ideal) x0 x1 x2 x3) x4 x5 := by
  funext i
  rw [val_main_v51_apply]
  refine Finset.sum_congr rfl fun k _ => ?_
  rw [val_main_v50_apply, val_main_v49_apply, val_main_v48_apply]
  have el : lidx_main_v51 i k = ix2 (i 0) k := funext fun a => by match a with | ⟨0, _⟩ => rfl | ⟨1, _⟩ => rfl
  have er : ridx_main_v51 i k = ix2 k (i 1) := funext fun a => by match a with | ⟨0, _⟩ => rfl | ⟨1, _⟩ => rfl
  have eb : idx_main_v48 (idx_main_v49 (lidx_main_v51 i k)) = ix1 k := funext fun a => by match a with | ⟨0, _⟩ => rfl
  rw [eb, el, er]
  rfl

/-- The third `dot_general` with the tail after it is the read-out. -/
theorem readOut_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal)) :
    val_main_v73 (F := Ideal) x0 x1 x2 x3 x4 x5 x6 x7 x8 = Gcn.readOut (val_main_v64 (F := Ideal) x0 x1 x2 x3 x4 x5) x6 x7 x8 := by
  funext i
  rw [val_main_v73_apply, val_main_v72_apply, val_main_call1_v2_apply, val_main_v71_apply, val_main_v68_apply,
    val_main_v70_apply, val_main_v69_apply, val_main_call1_v4_apply, val_main_call1_v1_apply]
  have hsum : (∑ k : Fin 64, val_main_v67 (F := Ideal) x0 x1 x2 x3 x4 x5 x6 (lidx_main_v68 i k) * x7 (ridx_main_v68 i k))
      = ∑ k : Fin 64, (val_main_v64 (F := Ideal) x0 x1 x2 x3 x4 x5 (ix2 (i 0) k) + x6 (ix1 k)) * x7 (ix2 k (i 1)) := by
    refine Finset.sum_congr rfl fun k _ => ?_
    rw [val_main_v67_apply, val_main_v66_apply, val_main_v65_apply]
    have el : lidx_main_v68 i k = ix2 (i 0) k := funext fun a => by match a with | ⟨0, _⟩ => rfl | ⟨1, _⟩ => rfl
    have er : ridx_main_v68 i k = ix2 k (i 1) := funext fun a => by match a with | ⟨0, _⟩ => rfl | ⟨1, _⟩ => rfl
    have eb : idx_main_v65 (idx_main_v66 (lidx_main_v68 i k)) = ix1 k := funext fun a => by match a with | ⟨0, _⟩ => rfl
    rw [eb, el, er]
    rfl
  rw [hsum]
  have efb : idx_main_v69 (idx_main_v70 i) = ix1 (0 : Fin 1) := funext fun a => by match a with | ⟨0, _⟩ => rfl
  rw [efb]
  rfl

end Cert.ReferenceIdeal.Stages

end
-- ==== Proof.FirstProduct.lean ====
/-
  The first pallas_call, read as a value. Grid point t loads rows 10000·t … 10000·t + 9999 of the feature matrix and
  the whole 128 × 64 weight matrix, and stores their product (a matrix product into a zero accumulator; the change of
  float format in front of it is the identity on extended reals). Row p of block t is row 10000·t + p of the array, so
  the ten blocks written back are the ten row-bands of ONE whole-array product, and together they tile the result.
-/
import proofs.«130077_j79559974191165_1_alg».proof.Proof.Gen.KernelIdeal.Frame
import proofs.«130077_j79559974191165_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FirstProduct

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The block product at an index -/

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of what one grid point stores: row p of the loaded feature block against column q of the weights. -/
theorem stored_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## From the ten blocks to the array -/

variable (V : (c : Dev nD) → (b : Ref sig .tc) → Buf (Elt Ideal) ((c : Thread nD τ).loc b))

/-- The feature array and the weight array as the region finds them, at their literal types. -/
abbrev feat (c : Dev nD) : FVec Ideal S100000x128 .f32 := V c main_arg0
abbrev wts (c : Dev nD) : FVec Ideal S128x64 .f32 := V c main_arg3

theorem origin : (![0, 0] : Fin 2 → Nat) = fun _ => 0 := funext fun a => by fin_cases a <;> rfl

/-- The printed index maps over the grid: the feature window and the result window sit at block row t, the weight
    window stays at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t, as a row of the whole array. -/
def rowOf (t : Fin cfg0.N) (p : Fin 10000) : Fin 100000 :=
  ⟨t.val * 10000 + p.val, by have h : t.val < 10 := N_0 ▸ t.isLt; have := p.isLt; omega⟩

/-- WHAT POINT t WRITES BACK is band t of the whole-array product of the arrays the region finds. -/
theorem flushed_eq (c : Dev nD) (t : Fin cfg0.N) :
    (dat0 V c).flushed 2 t = ((cfg0.win 2).blk t).view.read (Elt Ideal) (Gcn.featTimesW (feat V c) (wts V c)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_maps t
  funext j
  obtain ⟨p, q, rfl⟩ : ∃ (p : Fin 10000) (q : Fin 64), j = ix2 p q := ⟨j 0, j 1, eq_ix2 j⟩
  refine (stored_apply (iblk0 V c 0 t) (iblk0 V c 1 t) p q).trans ?_
  have hout : ((cfg0.win 2).blk t).view.emb (ix2 p q) = ix2 (rowOf t p) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show _ = Gcn.featTimesW (feat V c) (wts V c) (((cfg0.win 2).blk t).view.emb (ix2 p q))
  rw [hout]
  show _ = ∑ k : Fin 128, feat V c (ix2 (rowOf t p) k) * wts V c (ix2 k q)
  refine Finset.sum_congr rfl fun k _ => ?_
  have h0 : ((cfg0.win 0).blk t).view.emb (ix2 p k) = ix2 (rowOf t p) k := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  show feat V c (((cfg0.win 0).blk t).view.emb (ix2 p k)) * wts V c (((cfg0.win 1).blk t).view.emb (ix2 k q)) = _
  rw [h0, h1]

/-- An index of the array is in point t's block iff each coordinate is in the block's range on its axis. -/
theorem mem_band (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Every index of the result lies in the band of the point its row falls in. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by show (i 0).val / 10000 < grid0.N; rw [N_0]; omega⟩
  have ht : t.val = (i 0).val / 10000 := rfl
  obtain ⟨e0, e1, e2, e3, e4, e5⟩ := index_maps t
  refine ⟨t, flush0_2 t, ?_⟩
  rw [mem_band]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY the region leaves: the whole product of the feature array and the weight array it found. -/
theorem result (c : Dev nD) :
    (dat0 V c).arrAt 2 cfg0.N = Gcn.featTimesW (feat V c) (wts V c) :=
  (dat0 V c).arrAt_eq_of_cover 2 _ (fun t _ => flushed_eq V c t) covered

end Cert.KernelIdeal.FirstProduct

end
-- ==== Proof.SecondProduct.lean ====
/-
  The second pallas_call, read as a value. Grid point t loads rows 10000·t … 10000·t + 9999 of the aggregated matrix,
  the bias as a one-row matrix and the whole 64 × 64 weight matrix; it adds the bias row to every loaded row and stores
  the product with the weights (a matrix product into a zero accumulator; the change of float format in front of it is
  the identity on extended reals). The ten blocks written back are the ten row-bands of ONE whole-array function and
  tile the result.
-/
import proofs.«130077_j79559974191165_1_alg».proof.Proof.Gen.KernelIdeal.Frame
import proofs.«130077_j79559974191165_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.SecondProduct

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The block product at an index -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of what one grid point stores: row p of the loaded block, the bias row added to it, against column q
    of the weights. -/
theorem stored_apply (x0 : Vec Ideal S10000x64 .f32) (x1 : Vec Ideal S1x64 .f32) (x2 : Vec Ideal S64x64 .f32) (p : Fin 10000) (q : Fin 64) :
    k1_pay1 (F := Ideal) x0 x1 x2 (ix2 p q) = ∑ k : Fin 64, (x0 (ix2 p k) + x1 (ix2 (0 : Fin 1) k)) * x2 (ix2 k q) := by
  unfold k1_pay1
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  show (shapeCast S10000x64 x0 shapeCasts_S10000x64_S10000x64 (ix2 p k)
      + broadcastTo S10000x64 (shapeCast S1x64 x1 shapeCasts_S1x64_S1x64) broadcasts_S1x64_S10000x64 (ix2 p k)) * x2 (ix2 k q) = _
  rw [shapeCast_self, shapeCast_self, broadcastTo_1b_ab_apply]

/-! ## From the ten blocks to the array -/

variable (V : (c : Dev nD) → (b : Ref sig .tc) → Buf (Elt Ideal) ((c : Thread nD τ).loc b))

/-- The aggregated rows, the bias (a one-row matrix) and the weights as the region finds them, at their literal types. -/
abbrev agg (c : Dev nD) : FVec Ideal S100000x64 .f32 := V c main_v47
abbrev biasRow (c : Dev nD) : FVec Ideal S1x64 .f32 := V c main_v48
abbrev wts (c : Dev nD) : FVec Ideal S64x64 .f32 := V c main_arg5

theorem origin : (![0, 0] : Fin 2 → Nat) = fun _ => 0 := funext fun a => by fin_cases a <;> rfl

/-- The printed index maps over the grid: the row window and the result window sit at block row t, the bias and the
    weight windows stay at the origin. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t, as a row of the whole array. -/
def rowOf (t : Fin cfg1.N) (p : Fin 10000) : Fin 100000 :=
  ⟨t.val * 10000 + p.val, by have h : t.val < 10 := N_1 ▸ t.isLt; have := p.isLt; omega⟩

/-- WHAT POINT t WRITES BACK is band t of the whole-array biased product of the arrays the region finds. -/
theorem flushed_eq (c : Dev nD) (t : Fin cfg1.N) :
    (dat1 V c).flushed 3 t = ((cfg1.win 3).blk t).view.read (Elt Ideal) (Gcn.biasedTimesW (agg V c) (Gcn.row (biasRow V c)) (wts V c)) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin, View.ld_unit_zero (S := S64x64) origin]
  obtain ⟨e0, e1, e2, e3, e4, e5, e6, e7⟩ := index_maps t
  funext j
  obtain ⟨p, q, rfl⟩ : ∃ (p : Fin 10000) (q : Fin 64), j = ix2 p q := ⟨j 0, j 1, eq_ix2 j⟩
  refine (stored_apply (iblk1 V c 0 t) (iblk1 V c 1 t) (iblk1 V c 2 t) p q).trans ?_
  have hout : ((cfg1.win 3).blk t).view.emb (ix2 p q) = ix2 (rowOf t p) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show _ = Gcn.biasedTimesW (agg V c) (Gcn.row (biasRow V c)) (wts V c) (((cfg1.win 3).blk t).view.emb (ix2 p q))
  rw [hout]
  show _ = ∑ k : Fin 64, (agg V c (ix2 (rowOf t p) k) + biasRow V c (ix2 (0 : Fin 1) k)) * wts V c (ix2 k q)
  refine Finset.sum_congr rfl fun k _ => ?_
  have h0 : ((cfg1.win 0).blk t).view.emb (ix2 p k) = ix2 (rowOf t p) k := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q) = ix2 k q := by
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  show (agg V c (((cfg1.win 0).blk t).view.emb (ix2 p k)) + biasRow V c (((cfg1.win 1).blk t).view.emb (ix2 (0 : Fin 1) k)))
      * wts V c (((cfg1.win 2).blk t).view.emb (ix2 k q)) = _
  rw [h0, h1, h2]

/-- An index of the array is in point t's block iff each coordinate is in the block's range on its axis. -/
theorem mem_band (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v49).slice (win1_3.rect t)).set ↔ _
  rw [View.set_slice_whole, Rect.mem_set_unit]
  exact Iff.rfl

/-- Every index of the result lies in the band of the point its row falls in. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by show (i 0).val / 10000 < grid1.N; rw [N_1]; omega⟩
  have ht : t.val = (i 0).val / 10000 := rfl
  obtain ⟨e0, e1, e2, e3, e4, e5, e6, e7⟩ := index_maps t
  refine ⟨t, flush1_3 t, ?_⟩
  rw [mem_band]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE ARRAY the region leaves: the whole biased product of the arrays it found. -/
theorem result (c : Dev nD) :
    (dat1 V c).arrAt 3 cfg1.N = Gcn.biasedTimesW (agg V c) (Gcn.row (biasRow V c)) (wts V c) :=
  (dat1 V c).arrAt_eq_of_cover 3 _ (fun t _ => flushed_eq V c t) covered

end Cert.KernelIdeal.SecondProduct

end
-- ==== Proof.ReadOut.lean ====
/-
  The third pallas_call, read as a value. Grid point t loads rows 10000·t … 10000·t + 9999 of the aggregated matrix,
  the bias as a one-row matrix, the 64 × 1 weight column and the scalar bias as a 1 × 1 matrix; it adds the bias row to
  every loaded row, takes the product with the column (a matrix product into a zero accumulator; the change of float
  format in front of it is the identity on extended reals), adds the scalar bias, clamps from below at 0 and from
  above at 10, and rounds half to even. The ten blocks written back are the ten row-bands of ONE whole-array function
  and tile the result.
-/
import proofs.«130077_j79559974191165_1_alg».proof.Proof.Gen.KernelIdeal.Frame
import proofs.«130077_j79559974191165_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ReadOut

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The block product at an index -/

theorem lhs_axis0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_axis1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_axis0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_axis1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Entry (p, q) of what one grid point stores (q is the one column): row p of the loaded block, the bias row added to
    it, against the weight column; the scalar bias added; clamped from below at 0, then from above at 10; rounded
    half to even. -/
theorem stored_apply (x0 : Vec Ideal S10000x64 .f32) (x1 : Vec Ideal S1x64 .f32) (x2 : Vec Ideal S64x1 .f32) (x3 : Vec Ideal S1x1 .f32)
    (p : Fin 10000) (q : Fin 1) :
    k2_pay1 (F := Ideal) x0 x1 x2 x3 (ix2 p q) = FloatOps.roundeven (F := Ideal) (φ := .f32)
      (min (Ideal.ofBits .f32 0x41200000#32) (max (Ideal.ofBits .f32 0x00000000#32)
        ((∑ k : Fin 64, (x0 (ix2 p k) + x1 (ix2 (0 : Fin 1) k)) * x2 (ix2 k q)) + x3 (ix2 (0 : Fin 1) q)))) := by
  unfold k2_pay1
  simp only [matmul]
  show FloatOps.roundeven (F := Ideal) (φ := .f32) (min (Ideal.ofBits .f32 0x41200000#32) (max (Ideal.ofBits .f32 0x00000000#32)
      (FloatOps.matmul dot_S10000x64_S64x1_S10000x1_1_0_0_1_n_n none
          (truncf .bf16 (addf (shapeCast S10000x64 x0 shapeCasts_S10000x64_S10000x64) (broadcastTo S10000x64 (shapeCast S1x64 x1 shapeCasts_S1x64_S1x64) broadcasts_S1x64_S10000x64)) bitsLt_bf16_f32)
          (truncf .bf16 x2 bitsLt_bf16_f32) (constant S10000x1 .f32 0x00000000#32) (ix2 p q)
        + broadcastTo S10000x1 (shapeCast S1x1 x3 shapeCasts_S1x1_S1x1) broadcasts_S1x1_S10000x1 (ix2 p q)))) = _
  rw [Ideal.matmul_constant_zero_apply, ← Equiv.sum_comp (contrEquiv1 dot_S10000x64_S64x1_S10000x1_1_0_0_1_n_n 64 rfl rfl).symm, broadcastTo_1b_ab_apply]
  simp only [shapeCast_self]
  refine congrArg (fun s => FloatOps.roundeven (F := Ideal) (φ := .f32) (min (Ideal.ofBits .f32 0x41200000#32) (max (Ideal.ofBits .f32 0x00000000#32) (s + x3 (ix2 (0 : Fin 1) q))))) ?_
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p q) ((contrEquiv1 dot_S10000x64_S64x1_S10000x1_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x1_S10000x1_1_0_0_1_n_n.rhsIdx (ix2 p q) ((contrEquiv1 dot_S10000x64_S64x1_S10000x1_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  show (x0 (ix2 p k) + broadcastTo S10000x64 x1 broadcasts_S1x64_S10000x64 (ix2 p k)) * x2 (ix2 k q) = _
  rw [broadcastTo_1b_ab_apply]

/-- The same entry against whole arrays: if row p of the row block is row n of an array, and the three small blocks
    are the three small arrays, the stored entry is the whole-array read-out at row n. -/
theorem stored_eq (x0 : Vec Ideal S10000x64 .f32) (x1 : Vec Ideal S1x64 .f32) (x2 : Vec Ideal S64x1 .f32) (x3 : Vec Ideal S1x1 .f32)
    (A : FVec Ideal S100000x64 .f32) (B : FVec Ideal S1x64 .f32) (Wc : FVec Ideal S64x1 .f32) (Sb : FVec Ideal S1x1 .f32)
    (p : Fin 10000) (n : Fin 100000)
    (h0 : ∀ k : Fin 64, x0 (ix2 p k) = A (ix2 n k)) (h1 : ∀ k : Fin 64, x1 (ix2 (0 : Fin 1) k) = B (ix2 (0 : Fin 1) k))
    (h2 : ∀ k : Fin 64, x2 (ix2 k (0 : Fin 1)) = Wc (ix2 k (0 : Fin 1))) (h3 : x3 (ix2 (0 : Fin 1) (0 : Fin 1)) = Sb (ix2 (0 : Fin 1) (0 : Fin 1))) :
    k2_pay1 (F := Ideal) x0 x1 x2 x3 (ix2 p (0 : Fin 1)) = Gcn.readOut A (Gcn.row B) Wc (Gcn.row Sb) (ix2 n (0 : Fin 1)) := by
  rw [stored_apply]
  show _ = FloatOps.roundeven (F := Ideal) (φ := .f32) (min (Ideal.ofBits .f32 0x41200000#32) (max (Ideal.ofBits .f32 0x00000000#32)
      ((∑ k : Fin 64, (A (ix2 n k) + B (ix2 (0 : Fin 1) k)) * Wc (ix2 k (0 : Fin 1))) + Sb (ix2 (0 : Fin 1) (0 : Fin 1)))))
  simp only [h0, h1, h2, h3]

/-! ## From the ten blocks to the array -/

variable (V : (c : Dev nD) → (b : Ref sig .tc) → Buf (Elt Ideal) ((c : Thread nD τ).loc b))

/-- The aggregated rows, the bias (a one-row matrix), the weight column and the scalar bias (a 1 × 1 matrix) as the
    region finds them, at their literal types. -/
abbrev agg (c : Dev nD) : FVec Ideal S100000x64 .f32 := V c main_v61
abbrev biasRow (c : Dev nD) : FVec Ideal S1x64 .f32 := V c main_v62
abbrev wcol (c : Dev nD) : FVec Ideal S64x1 .f32 := V c main_arg7
abbrev sbias (c : Dev nD) : FVec Ideal S1x1 .f32 := V c main_v63

theorem origin : (![0, 0] : Fin 2 → Nat) = fun _ => 0 := funext fun a => by fin_cases a <;> rfl

/-- The printed index maps over the grid: the row window and the result window sit at block row t, the other three
    windows stay at the origin. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t, as a row of the whole array. -/
def rowOf (t : Fin cfg2.N) (p : Fin 10000) : Fin 100000 :=
  ⟨t.val * 10000 + p.val, by have h : t.val < 10 := N_2 ▸ t.isLt; have := p.isLt; omega⟩

/-- WHAT POINT t WRITES BACK is band t of the whole-array read-out of the arrays the region finds. -/
theorem flushed_eq (c : Dev nD) (t : Fin cfg2.N) :
    (dat2 V c).flushed 4 t = ((cfg2.win 4).blk t).view.read (Elt Ideal)
      (Gcn.readOut (agg V c) (Gcn.row (biasRow V c)) (wcol V c) (Gcn.row (sbias V c))) := by
  show (cfg2.win 4).cut (grid2.coords t) ((dat2 V c).after 4 t) = _
  rw [after2_4]
  unfold out2_4
  rw [View.canon_unit_zero origin]
  simp only [View.ld_unit_zero (S := S10000x64) origin, View.ld_unit_zero (S := S1x64) origin, View.ld_unit_zero (S := S64x1) origin, View.ld_unit_zero (S := S1x1) origin]
  obtain ⟨e0, e1, e2, e3, e4, e5, e6, e7, e8, e9⟩ := index_maps t
  funext j
  obtain ⟨p, q, rfl⟩ : ∃ (p : Fin 10000) (q : Fin 1), j = ix2 p q := ⟨j 0, j 1, eq_ix2 j⟩
  obtain rfl : q = 0 := Subsingleton.elim _ _
  have hout : ((cfg2.win 4).blk t).view.emb (ix2 p (0 : Fin 1)) = ix2 (rowOf t p) (0 : Fin 1) := by
    funext a; apply Fin.ext
    match a with
    | ⟨0, _⟩ => show win2_4.index t (0 : Fin 2) * 10000 + 1 * p.val = t.val * 10000 + p.val; omega
    | ⟨1, _⟩ => show win2_4.index t (1 : Fin 2) * 1 + 1 * 0 = 0; omega
  show _ = Gcn.readOut (agg V c) (Gcn.row (biasRow V c)) (wcol V c) (Gcn.row (sbias V c)) (((cfg2.win 4).blk t).view.emb (ix2 p (0 : Fin 1)))
  rw [hout]
  refine stored_eq (iblk2 V c 0 t) (iblk2 V c 1 t) (iblk2 V c 2 t) (iblk2 V c 3 t) (agg V c) (biasRow V c) (wcol V c) (sbias V c) p (rowOf t p) ?_ ?_ ?_ ?_
  · intro k
    have h0 : ((cfg2.win 0).blk t).view.emb (ix2 p k) = ix2 (rowOf t p) k := by
      funext a; apply Fin.ext
      match a with
      | ⟨0, _⟩ => show win2_0.index t (0 : Fin 2) * 10000 + 1 * p.val = t.val * 10000 + p.val; omega
      | ⟨1, _⟩ => show win2_0.index t (1 : Fin 2) * 64 + 1 * k.val = k.val; omega
    show agg V c (((cfg2.win 0).blk t).view.emb (ix2 p k)) = _
    rw [h0]
  · intro k
    have h1 : ((cfg2.win 1).blk t).view.emb (ix2 (0 : Fin 1) k) = ix2 (0 : Fin 1) k := by
      funext a; apply Fin.ext
      match a with
      | ⟨0, _⟩ => show win2_1.index t (0 : Fin 2) * 1 + 1 * 0 = 0; omega
      | ⟨1, _⟩ => show win2_1.index t (1 : Fin 2) * 64 + 1 * k.val = k.val; omega
    show biasRow V c (((cfg2.win 1).blk t).view.emb (ix2 (0 : Fin 1) k)) = _
    rw [h1]
  · intro k
    have h2 : ((cfg2.win 2).blk t).view.emb (ix2 k (0 : Fin 1)) = ix2 k (0 : Fin 1) := by
      funext a; apply Fin.ext
      match a with
      | ⟨0, _⟩ => show win2_2.index t (0 : Fin 2) * 64 + 1 * k.val = k.val; omega
      | ⟨1, _⟩ => show win2_2.index t (1 : Fin 2) * 1 + 1 * 0 = 0; omega
    show wcol V c (((cfg2.win 2).blk t).view.emb (ix2 k (0 : Fin 1))) = _
    rw [h2]
  · have h3 : ((cfg2.win 3).blk t).view.emb (ix2 (0 : Fin 1) (0 : Fin 1)) = ix2 (0 : Fin 1) (0 : Fin 1) := by
      funext a; apply Fin.ext
      match a with
      | ⟨0, _⟩ => show win2_3.index t (0 : Fin 2) * 1 + 1 * 0 = 0; omega
      | ⟨1, _⟩ => show win2_3.index t (1 : Fin 2) * 1 + 1 * 0 = 0; omega
    show sbias V c (((cfg2.win 3).blk t).view.emb (ix2 (0 : Fin 1) (0 : Fin 1))) = _
    rw [h3]

/-- An index of the array is in point t's block iff each coordinate is in the block's range on its axis. -/
theorem mem_band (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v64).slice (win2_4.rect t)).set ↔ _
  rw [View.set_slice_whole, Rect.mem_set_unit]
  exact Iff.rfl

/-- Every index of the result lies in the band of the point its row falls in. -/
theorem covered (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  let t : Fin cfg2.N := ⟨(i 0).val / 10000, by show (i 0).val / 10000 < grid2.N; rw [N_2]; omega⟩
  have ht : t.val = (i 0).val / 10000 := rfl
  obtain ⟨e0, e1, e2, e3, e4, e5, e6, e7, e8, e9⟩ := index_maps t
  refine ⟨t, flush2_4 t, ?_⟩
  rw [mem_band]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- THE ARRAY the region leaves: the whole read-out of the arrays it found. -/
theorem result (c : Dev nD) :
    (dat2 V c).arrAt 4 cfg2.N = Gcn.readOut (agg V c) (Gcn.row (biasRow V c)) (wcol V c) (Gcn.row (sbias V c)) :=
  (dat2 V c).arrAt_eq_of_cover 4 _ (fun t _ => flushed_eq V c t) covered

end Cert.KernelIdeal.ReadOut

end
-- ==== Proof.HostChain.lean ====
/-
  The host side of the kernel's program, read as values. Before the first product the program builds, from the edge
  list and the edge weights, the edges' sources, their targets and their normalised weights; these are the reference
  program's own three stages of the same inputs. After each of the first two products it gathers the product's rows at
  the sources, scales them and adds them up at the targets: the reference's aggregation, as ONE function of the rows.
  The biases reach the second and third pallas_call laid out as one-row matrices. No host operation and no pallas_call
  writes an argument array or any of the three edge arrays once they are made.
  With the three pallas_calls read as whole-array functions, the result buffer at the return is the read-out of the
  aggregated biased product of the aggregated product of the launch arrays.
-/
import proofs.«130077_j79559974191165_1_alg».proof.Proof.Gen.KernelIdeal.Frame
import proofs.«130077_j79559974191165_1_alg».proof.Proof.Gen.ReferenceIdeal.Read
import proofs.«130077_j79559974191165_1_alg».proof.Proof.RefStages
import proofs.«130077_j79559974191165_1_alg».proof.Proof.FirstProduct
import proofs.«130077_j79559974191165_1_alg».proof.Proof.SecondProduct
import proofs.«130077_j79559974191165_1_alg».proof.Proof.ReadOut
import Idealize.ShloMosaic.Lib.StableHlo.Run

set_option maxRecDepth 16384

noncomputable section

namespace Cert.HostChain

open Idealize.ShloMosaic Idealize.ShloMosaic.TcCoe Idealize.SL.Sem Idealize.ShloMosaic.StableHlo
open Cert.KernelIdeal Cert.KernelIdeal.Gen

section AnyFloats
variable {F : FTy → Type} [FloatOps F]
variable (m : (ℓ : Loc nD τ sig) → Buf (Elt F) ℓ) (ρ : Dev nD → PrngReg)

/-! ## What the first pallas_call finds -/

set_option maxHeartbeats 40000000 in
/-- The edges' sources (with one self-loop per node appended) are the reference's stage of the edge list. -/
theorem edges_src (c : Dev nD) : W3 m ρ c (Proc.devRef .tc main_v3) = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 40000000 in
/-- The edges' targets likewise. -/
theorem edges_dst (c : Dev nD) : W3 m ρ c (Proc.devRef .tc main_v6) = Cert.ReferenceIdeal.Read.val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 40000000 in
/-- The edges' normalised weights, as a column: the reference's stage of the edge list and the edge weights. -/
theorem edges_norm (c : Dev nD) : W3 m ρ c (Proc.devRef .tc main_v34) = Cert.ReferenceIdeal.Read.val_main_v42 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v34) = _
  after_results_simp <;> rfl

set_option maxHeartbeats 40000000 in
theorem launched3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

set_option maxHeartbeats 40000000 in
theorem launched3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

set_option maxHeartbeats 40000000 in
theorem launched3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

set_option maxHeartbeats 40000000 in
theorem launched3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

set_option maxHeartbeats 40000000 in
theorem launched3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

set_option maxHeartbeats 40000000 in
theorem launched3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl

set_option maxHeartbeats 40000000 in
theorem launched3_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl

/-! ## Buffers the stretch after the first pallas_call leaves alone -/

set_option maxHeartbeats 40000000 in
theorem kept5_v3 (c : Dev nD) : W5 m ρ c (Proc.devRef .tc main_v3) = W4 m ρ c (Proc.devRef .tc main_v3) := by
  show StableHlo.after hostOps1 (W4 m ρ c) (Proc.devRef .tc main_v3) = _
  after_results_simp <;> rfl

set_option maxHeartbeats 40000000 in
theorem kept5_v6 (c : Dev nD) : W5 m ρ c (Proc.devRef .tc main_v6) = W4 m ρ c (Proc.devRef .tc main_v6) := by
  show StableHlo.after hostOps1 (W4 m ρ c) (Proc.devRef .tc main_v6) = _
  after_results_simp <;> rfl

set_option maxHeartbeats 40000000 in
theorem kept5_v34 (c : Dev nD) : W5 m ρ c (Proc.devRef .tc main_v34) = W4 m ρ c (Proc.devRef .tc main_v34) := by
  show StableHlo.after hostOps1 (W4 m ρ c) (Proc.devRef .tc main_v34) = _
  after_results_simp <;> rfl

set_option maxHeartbeats 40000000 in
theorem kept5_arg5 (c : Dev nD) : W5 m ρ c (Proc.devRef .tc main_arg5) = W4 m ρ c (Proc.devRef .tc main_arg5) := by
  show StableHlo.after hostOps1 (W4 m ρ c) (Proc.devRef .tc main_arg5) = _
  after_results_simp <;> rfl

set_option maxHeartbeats 40000000 in
theorem kept5_arg6 (c : Dev nD) : W5 m ρ c (Proc.devRef .tc main_arg6) = W4 m ρ c (Proc.devRef .tc main_arg6) := by
  show StableHlo.after hostOps1 (W4 m ρ c) (Proc.devRef .tc main_arg6) = _
  after_results_simp <;> rfl

set_option maxHeartbeats 40000000 in
theorem kept5_arg7 (c : Dev nD) : W5 m ρ c (Proc.devRef .tc main_arg7) = W4 m ρ c (Proc.devRef .tc main_arg7) := by
  show StableHlo.after hostOps1 (W4 m ρ c) (Proc.devRef .tc main_arg7) = _
  after_results_simp <;> rfl

set_option maxHeartbeats 40000000 in
theorem kept5_arg8 (c : Dev nD) : W5 m ρ c (Proc.devRef .tc main_arg8) = W4 m ρ c (Proc.devRef .tc main_arg8) := by
  show StableHlo.after hostOps1 (W4 m ρ c) (Proc.devRef .tc main_arg8) = _
  after_results_simp <;> rfl

/-- From the second pallas_call's entry back to the first's, for a buffer neither the first pallas_call nor the
    stretch after it writes. -/
theorem back5_v3 (c : Dev nD) : W5 m ρ c (Proc.devRef .tc main_v3) = W3 m ρ c (Proc.devRef .tc main_v3) :=
  (kept5_v3 m ρ c).trans (W4_of_ne m ρ c main_v3 (by decide))
theorem back5_v6 (c : Dev nD) : W5 m ρ c (Proc.devRef .tc main_v6) = W3 m ρ c (Proc.devRef .tc main_v6) :=
  (kept5_v6 m ρ c).trans (W4_of_ne m ρ c main_v6 (by decide))
theorem back5_v34 (c : Dev nD) : W5 m ρ c (Proc.devRef .tc main_v34) = W3 m ρ c (Proc.devRef .tc main_v34) :=
  (kept5_v34 m ρ c).trans (W4_of_ne m ρ c main_v34 (by decide))
theorem back5_arg5 (c : Dev nD) : W5 m ρ c (Proc.devRef .tc main_arg5) = W3 m ρ c (Proc.devRef .tc main_arg5) :=
  (kept5_arg5 m ρ c).trans (W4_of_ne m ρ c main_arg5 (by decide))
theorem back5_arg6 (c : Dev nD) : W5 m ρ c (Proc.devRef .tc main_arg6) = W3 m ρ c (Proc.devRef .tc main_arg6) :=
  (kept5_arg6 m ρ c).trans (W4_of_ne m ρ c main_arg6 (by decide))
theorem back5_arg7 (c : Dev nD) : W5 m ρ c (Proc.devRef .tc main_arg7) = W3 m ρ c (Proc.devRef .tc main_arg7) :=
  (kept5_arg7 m ρ c).trans (W4_of_ne m ρ c main_arg7 (by decide))
theorem back5_arg8 (c : Dev nD) : W5 m ρ c (Proc.devRef .tc main_arg8) = W3 m ρ c (Proc.devRef .tc main_arg8) :=
  (kept5_arg8 m ρ c).trans (W4_of_ne m ρ c main_arg8 (by decide))

/-! ## What the second pallas_call finds -/

set_option maxHeartbeats 40000000 in
/-- Its rows: the first product's rows, aggregated over the edges. -/
theorem entry1_rows (c : Dev nD) : W5 m ρ c (Proc.devRef .tc main_v47)
    = Cert.ReferenceIdeal.Stages.aggregate1 (F := F) (W4 m ρ c (Proc.devRef .tc main_v35)) (m ((c : Thread nD τ).loc main_arg1)) (m ((c : Thread nD τ).loc main_arg2)) := by
  show StableHlo.after hostOps1 (W4 m ρ c) (Proc.devRef .tc main_v47) = _
  after_results_simp
  rw [W4_of_ne m ρ c main_v3 (by decide), W4_of_ne m ρ c main_v6 (by decide), W4_of_ne m ρ c main_v34 (by decide),
    edges_src, edges_dst, edges_norm]
  rfl

set_option maxHeartbeats 40000000 in
/-- Its bias: the first bias vector, laid out as a one-row matrix. -/
theorem entry1_bias (c : Dev nD) : W5 m ρ c (Proc.devRef .tc main_v48) = shapeCast S1x64 (m ((c : Thread nD τ).loc main_arg4)) shapeCasts_S64_S1x64 := by
  show StableHlo.after hostOps1 (W4 m ρ c) (Proc.devRef .tc main_v48) = _
  after_results_simp
  rw [W4_of_ne m ρ c main_arg4 (by decide), launched3_arg4]
  rfl

/-- Its weights: the second weight matrix as launched. -/
theorem entry1_wts (c : Dev nD) : W5 m ρ c (Proc.devRef .tc main_arg5) = (m ((c : Thread nD τ).loc main_arg5)) :=
  (back5_arg5 m ρ c).trans (launched3_arg5 m ρ c)

/-! ## What the third pallas_call finds -/

set_option maxHeartbeats 40000000 in
/-- Its rows: the second product's rows, aggregated over the edges. -/
theorem entry2_rows (c : Dev nD) : W7 m ρ c (Proc.devRef .tc main_v61)
    = Cert.ReferenceIdeal.Stages.aggregate2 (F := F) (W6 m ρ c (Proc.devRef .tc main_v49)) (m ((c : Thread nD τ).loc main_arg1)) (m ((c : Thread nD τ).loc main_arg2)) := by
  show StableHlo.after hostOps2 (W6 m ρ c) (Proc.devRef .tc main_v61) = _
  after_results_simp
  rw [W6_of_ne m ρ c main_v3 (by decide), W6_of_ne m ρ c main_v6 (by decide), W6_of_ne m ρ c main_v34 (by decide),
    back5_v3, back5_v6, back5_v34, edges_src, edges_dst, edges_norm]
  rfl

set_option maxHeartbeats 40000000 in
/-- Its bias: the second bias vector, laid out as a one-row matrix. -/
theorem entry2_bias (c : Dev nD) : W7 m ρ c (Proc.devRef .tc main_v62) = shapeCast S1x64 (m ((c : Thread nD τ).loc main_arg6)) shapeCasts_S64_S1x64 := by
  show StableHlo.after hostOps2 (W6 m ρ c) (Proc.devRef .tc main_v62) = _
  after_results_simp
  rw [W6_of_ne m ρ c main_arg6 (by decide), back5_arg6, launched3_arg6]
  rfl

set_option maxHeartbeats 40000000 in
/-- Its weight column as launched. -/
theorem entry2_col (c : Dev nD) : W7 m ρ c (Proc.devRef .tc main_arg7) = (m ((c : Thread nD τ).loc main_arg7)) := by
  show StableHlo.after hostOps2 (W6 m ρ c) (Proc.devRef .tc main_arg7) = _
  after_results_simp
  rw [W6_of_ne m ρ c main_arg7 (by decide), back5_arg7, launched3_arg7]

set_option maxHeartbeats 40000000 in
/-- Its scalar bias, laid out as a 1 × 1 matrix. -/
theorem entry2_sbias (c : Dev nD) : W7 m ρ c (Proc.devRef .tc main_v63) = shapeCast S1x1 (m ((c : Thread nD τ).loc main_arg8)) shapeCasts_S1_S1x1 := by
  show StableHlo.after hostOps2 (W6 m ρ c) (Proc.devRef .tc main_v63) = _
  after_results_simp
  rw [W6_of_ne m ρ c main_arg8 (by decide), back5_arg8, launched3_arg8]
  rfl

end AnyFloats

/-! ## The result buffer at the return, over the extended reals -/

variable (m : (ℓ : Loc nD τ sig) → Buf (Elt Ideal) ℓ) (ρ : Dev nD → PrngReg)

/-- The launch arrays at their literal types. -/
abbrev feat (c : Dev nD) : FVec Ideal S100000x128 .f32 := (m ((c : Thread nD τ).loc main_arg0))
abbrev edgeList (c : Dev nD) : IVec S2x1600000 32 := (m ((c : Thread nD τ).loc main_arg1))
abbrev edgeWeight (c : Dev nD) : FVec Ideal S1600000 .f32 := (m ((c : Thread nD τ).loc main_arg2))
abbrev w1 (c : Dev nD) : FVec Ideal S128x64 .f32 := (m ((c : Thread nD τ).loc main_arg3))
abbrev b1 (c : Dev nD) : FVec Ideal S64 .f32 := (m ((c : Thread nD τ).loc main_arg4))
abbrev w2 (c : Dev nD) : FVec Ideal S64x64 .f32 := (m ((c : Thread nD τ).loc main_arg5))
abbrev b2 (c : Dev nD) : FVec Ideal S64 .f32 := (m ((c : Thread nD τ).loc main_arg6))
abbrev wOut (c : Dev nD) : FVec Ideal S64x1 .f32 := (m ((c : Thread nD τ).loc main_arg7))
abbrev bOut (c : Dev nD) : FVec Ideal S1 .f32 := (m ((c : Thread nD τ).loc main_arg8))

/-- What the kernel's program computes, as one term of the launch arrays. -/
def value (c : Dev nD) : FVec Ideal S100000x1 .f32 :=
  Gcn.readOut
    (Cert.ReferenceIdeal.Stages.aggregate2 (F := Ideal)
      (Gcn.biasedTimesW
        (Cert.ReferenceIdeal.Stages.aggregate1 (F := Ideal) (Gcn.featTimesW (feat m c) (w1 m c)) (edgeList m c) (edgeWeight m c))
        (b1 m c) (w2 m c))
      (edgeList m c) (edgeWeight m c))
    (b2 m c) (wOut m c) (bOut m c)

/-- The first pallas_call leaves the product of the features and the first weights. -/
theorem after_first (c : Dev nD) : W4 m ρ c (Proc.devRef .tc main_v35) = Gcn.featTimesW (feat m c) (w1 m c) := by
  refine (W4_arr m ρ c 2).trans ?_
  refine (FirstProduct.result (V3 m ρ) c).trans ?_
  show Gcn.featTimesW (W3 m ρ c (Proc.devRef .tc main_arg0)) (W3 m ρ c (Proc.devRef .tc main_arg3)) = _
  rw [launched3_arg0, launched3_arg3]

/-- The second pallas_call leaves the biased product of the aggregated rows. -/
theorem after_second (c : Dev nD) : W6 m ρ c (Proc.devRef .tc main_v49)
    = Gcn.biasedTimesW (Cert.ReferenceIdeal.Stages.aggregate1 (F := Ideal) (Gcn.featTimesW (feat m c) (w1 m c)) (edgeList m c) (edgeWeight m c)) (b1 m c) (w2 m c) := by
  refine (W6_arr m ρ c 3).trans ?_
  refine (SecondProduct.result (V5 m ρ) c).trans ?_
  show Gcn.biasedTimesW (W5 m ρ c (Proc.devRef .tc main_v47)) (Gcn.row (W5 m ρ c (Proc.devRef .tc main_v48))) (W5 m ρ c (Proc.devRef .tc main_arg5)) = _
  rw [entry1_rows, entry1_bias, entry1_wts, after_first, Gcn.row_shapeCast]

/-- THE RESULT BUFFER after the last pallas_call. -/
theorem result_eq (c : Dev nD) : W8 m ρ c (Proc.devRef .tc main_v64) = value m c := by
  refine (W8_arr m ρ c 4).trans ?_
  refine (ReadOut.result (V7 m ρ) c).trans ?_
  show Gcn.readOut (W7 m ρ c (Proc.devRef .tc main_v61)) (Gcn.row (W7 m ρ c (Proc.devRef .tc main_v62))) (W7 m ρ c (Proc.devRef .tc main_arg7))
      (Gcn.row (W7 m ρ c (Proc.devRef .tc main_v63))) = _
  rw [entry2_rows, entry2_bias, entry2_col, entry2_sbias, after_second, Gcn.row_shapeCast, Gcn.row_shapeCast]
  rfl

end Cert.HostChain

end
-- ==== Proof.lean ====
/-
  A two-layer graph convolution with a scalar read-out, computed by three pallas_calls among host operations, against
  the same network written in jnp.

  Both programs build the same edge data (sources, targets and symmetric-normalised weights, self-loops included) from
  the edge list and the edge weights, and both aggregate a layer's rows over the edges in the same way. They differ in
  how the three matrix products are taken. The kernel takes each in ten bands of 10000 rows, as a matrix product into a
  zero accumulator after a change of float format that is the identity on extended reals, adding the bias row inside
  the band; the reference takes one whole `dot_general` of rows onto which the bias was broadcast. A band's entry
  (p, j) and the whole product's entry (10000·t + p, j) are the same finite sum of products, so each pallas_call leaves
  the reference's whole-array function of what it found (Proof/FirstProduct, SecondProduct, ReadOut, against
  Proof/Spec; the reference's side in Proof/RefStages). The tail of the third — add the scalar bias, clamp from below
  at 0, then from above at 10, round half to even — is the same on both sides, literal for literal. Only the
  commutative and associative laws of the extended reals' sum are used, so the precondition is never opened.
  Proof/HostChain reads the kernel program's host side and composes; Proof/KernelRun is the program's run with the
  result buffer named.
-/
import proofs.«130077_j79559974191165_1_alg».proof.Defs
import proofs.«130077_j79559974191165_1_alg».proof.Proof.Gen.Kernel
import proofs.«130077_j79559974191165_1_alg».proof.Proof.Gen.Kernel.Skeleton
import proofs.«130077_j79559974191165_1_alg».proof.Proof.Gen.Kernel.Launch
import proofs.«130077_j79559974191165_1_alg».proof.Proof.Gen.Kernel.Points
import proofs.«130077_j79559974191165_1_alg».proof.Proof.Gen.Kernel.Frame
import proofs.«130077_j79559974191165_1_alg».proof.Proof.Gen.KernelIdeal
import proofs.«130077_j79559974191165_1_alg».proof.Proof.Gen.KernelIdeal.Skeleton
import proofs.«130077_j79559974191165_1_alg».proof.Proof.Gen.KernelIdeal.Launch
import proofs.«130077_j79559974191165_1_alg».proof.Proof.Gen.KernelIdeal.Points
import proofs.«130077_j79559974191165_1_alg».proof.Proof.Gen.KernelIdeal.Frame
import proofs.«130077_j79559974191165_1_alg».proof.Proof.Gen.ReferenceIdeal
import proofs.«130077_j79559974191165_1_alg».proof.Proof.Gen.Pre_finite_inputs
import proofs.«130077_j79559974191165_1_alg».proof.Proof.Gen.ReferenceIdeal.Run
import proofs.«130077_j79559974191165_1_alg».proof.Proof.Gen.ReferenceIdeal.Read
import proofs.«130077_j79559974191165_1_alg».proof.Proof.KernelRun
import proofs.«130077_j79559974191165_1_alg».proof.Proof.RefStages
import proofs.«130077_j79559974191165_1_alg».proof.Proof.HostChain
import Idealize.ShloMosaic.Adequacy
import Idealize.ShloMosaic.Init

noncomputable section

namespace Cert.Proof

open Idealize.ShloMosaic Idealize.SL.Sem

/-- The kernel's program runs and keeps its arguments, at the word level: the generated frame. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result: the kernel's result buffer is
    the read-out of the aggregated biased product of the aggregated product of ITS launch arrays (Proof/HostChain), the
    reference's result is the same term of ITS launch arrays (Proof/RefStages), and the launch arrays agree. -/
theorem algebraic : Cert.algebraic_KernelIdeal_ReferenceIdeal := by
  intro m ρ m' ρ' _ hagree
  refine ⟨fun c => Cert.HostChain.value m c, ?_, ?_⟩
  · exact (θ_run Cert.KernelIdeal.defs _ _).mono
      (fun r h c => ⟨(h c).1.trans (Cert.HostChain.result_eq m ρ c), (h c).2⟩)
      (Cert.KernelIdeal.Launched.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v73_eq, a0, a1, a2, a3, a4, a5, a6, a7, a8,
      Cert.ReferenceIdeal.Stages.readOut_eq, Cert.ReferenceIdeal.Stages.aggregated2, Cert.ReferenceIdeal.Stages.product2,
      Cert.ReferenceIdeal.Stages.aggregated1, Cert.ReferenceIdeal.Stages.product1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
